-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "two_eps_sq" .f32 0x2C0CBCCC#32 ((77371252064649 / 38685626227668133590597632 : ℝ) : EReal)
  ∧ IdealRules.named_const.Statement Cert.KernelIdeal.κ "two_eps_sq" .f32 0x2C0CBCCC#32 ((77371252064649 / 38685626227668133590597632 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2 : Shape := ⟨3, ![8, 4096, 2]⟩
abbrev S8 : Shape := ⟨1, ![8]⟩
abbrev S_ : Shape := ⟨0, ![]⟩

class Facts : Prop where
  bcast_S_S8x4096x2 : S_.BroadcastsInDim S8x4096x2 (![] : Fin 0 → Fin S8x4096x2.rank)
  reducesTo_S8x4096x2_S_d0_1_2 : S8x4096x2.ReducesTo [0, 1, 2] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S8x4096x2 .f32) (main_arg1 : FVec F S8x4096x2 .f32) (main_arg2 : FVec F S8 .f32) : IVec S_ 1 :=
  let main_v0 : FVec F S8x4096x2 .f32 := Host.absf main_arg0
  let main_cst : FVec F S_ .f32 := constant S_ .f32 0x7F800000#32
  let main_v1 : FVec F S8x4096x2 .f32 := broadcastInDim S8x4096x2 ![] bcast_S_S8x4096x2 main_cst
  let main_v2 : IVec S8x4096x2 1 := cmpf .olt main_v0 main_v1
  let main_c : IVec S_ 1 := constantI S_ 1 1#1
  let main_v3 : IVec S_ 1 := (fun x v => Host.reduce IntOp.andi x v reducesTo_S8x4096x2_S_d0_1_2 h_S_) main_v2 main_c
  let main_v4 : FVec F S8x4096x2 .f32 := Host.absf main_arg1
  let main_cst_0 : FVec F S_ .f32 := constant S_ .f32 0x7F800000#32
  let main_v5 : FVec F S8x4096x2 .f32 := broadcastInDim S8x4096x2 ![] bcast_S_S8x4096x2 main_cst_0
  let main_v6 : IVec S8x4096x2 1 := cmpf .olt main_v4 main_v5
  let main_c_1 : IVec S_ 1 := constantI S_ 1 1#1
  let main_v7 : IVec S_ 1 := (fun x v => Host.reduce IntOp.andi x v reducesTo_S8x4096x2_S_d0_1_2 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S8x4096x2 : Shape := ⟨3, ![8, 4096, 2]⟩
abbrev S8 : Shape := ⟨1, ![8]⟩
abbrev S8x2x4096 : Shape := ⟨3, ![8, 2, 4096]⟩
abbrev S8x8x128 : Shape := ⟨3, ![8, 8, 128]⟩
abbrev S1x2x4096 : Shape := ⟨3, ![1, 2, 4096]⟩
abbrev S1x8x128 : Shape := ⟨3, ![1, 8, 128]⟩
abbrev S2x4096 : Shape := ⟨2, ![2, 4096]⟩
abbrev S1x4096 : Shape := ⟨2, ![1, 4096]⟩
abbrev S4096 : Shape := ⟨1, ![4096]⟩
abbrev S1x1 : Shape := ⟨2, ![1, 1]⟩
abbrev S1x2x256 : Shape := ⟨3, ![1, 2, 256]⟩
abbrev S2x256 : Shape := ⟨2, ![2, 256]⟩
abbrev S256x2 : Shape := ⟨2, ![256, 2]⟩
abbrev S256x1 : Shape := ⟨2, ![256, 1]⟩
abbrev S256x4096 : Shape := ⟨2, ![256, 4096]⟩
abbrev S256 : Shape := ⟨1, ![256]⟩
abbrev S1 : Shape := ⟨1, ![1]⟩
abbrev S8x128 : Shape := ⟨2, ![8, 128]⟩
abbrev S8x1x1 : Shape := ⟨3, ![8, 1, 1]⟩

abbrev nBuf : Space → Nat
  | .hbm => 9
  | .vmem => 6
  | .smem => 0
  | _ => 0

abbrev bufTy : (tb : Table) → Fin (tcTables nBuf tb) → BufTy
  | .hbm, ⟨0, _⟩ => ⟨S8x4096x2, .f32⟩
  | .hbm, ⟨1, _⟩ => ⟨S8x4096x2, .f32⟩
  | .hbm, ⟨2, _⟩ => ⟨S8, .f32⟩
  | .hbm, ⟨3, _⟩ => ⟨S8x2x4096, .f32⟩
  | .hbm, ⟨4, _⟩ => ⟨S8x2x4096, .f32⟩
  | .hbm, ⟨5, _⟩ => ⟨S8x8x128, .f32⟩
  | .hbm, ⟨6, _⟩ => ⟨S8x1x1, .f32⟩
  | .hbm, ⟨7, _⟩ => ⟨S8, .f32⟩
  | .hbm, ⟨8, _⟩ => ⟨S8, .f32⟩
  | .local _ .vmem, ⟨0, _⟩ => ⟨S1x2x4096, .f32⟩
  | .local _ .vmem, ⟨1, _⟩ => ⟨S1x2x4096, .f32⟩
  | .local _ .vmem, ⟨2, _⟩ => ⟨S1x2x4096, .f32⟩
  | .local _ .vmem, ⟨3, _⟩ => ⟨S1x2x4096, .f32⟩
  | .local _ .vmem, ⟨4, _⟩ => ⟨S1x8x128, .f32⟩
  | .local _ .vmem, ⟨5, _⟩ => ⟨S1x8x128, .f32⟩
  | _, _ => ⟨S8x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v10 : BitVec 32 := Scalar.addi c0_i32 c16_i32
  let c1_i32 : BitVec 32 := 1#32
  ⟨c0_i32, v10, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c256_i32 : BitVec 32 := 256#32
  let v22 : BitVec 32 := Scalar.muli arg4 c256_i32
  v22
def k0_off1 (k0_t1 : Fin k0_t1_loop.trips) : Fin 3 → Nat :=
  let c0_8 : Index := 0#32
  let c0_9 : Index := 0#32
  let c0_i32 : BitVec 32 := 0#32
  let c1_i32 : BitVec 32 := 1#32
  let arg4 : BitVec 32 := Scf.iv c0_i32 c1_i32 k0_t1
  let c256_i32 : BitVec 32 := 256#32
  let v22 : BitVec 32 := Scalar.muli arg4 c256_i32
  let v23 : BitVec 32 := v22
  let v24 : Index := Scalar.indexCast v23
  ![0, 0, v24.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S8x4096x2_S8x2x4096_0_2_1 : S8x4096x2.Transposes [0, 2, 1] S8x2x4096
  inb_S1x2x4096_S1x2x4096_0_0_0 : ∀ a, (![0, 0, 0] : Fin 3 → Nat) a + S1x2x4096.size a ≤ S1x2x4096.size a
  h_S1x2x4096 : 0 < S1x2x4096.numel
  shapeCasts_S1x2x4096_S2x4096 : S1x2x4096.ShapeCasts S2x4096
  slices_S2x4096_o0_0_S1x4096 : S2x4096.Slices ![0, 0] S1x4096
  shapeCasts_S1x4096_S4096 : S1x4096.ShapeCasts S4096
  shapeCasts_S4096_S1x4096 : S4096.ShapeCasts S1x4096
  slices_S2x4096_o1_0_S1x4096 : S2x4096.Slices ![1, 0] S1x4096
  h_S1x2x256 : 0 < S1x2x256.numel
  shapeCasts_S1x2x256_S2x256 : S1x2x256.ShapeCasts S2x256
  transposes_S2x256_p1_0_S256x2 : S2x256.Transposes [1, 0] S256x2
  slices_S256x2_o0_0_S256x1 : S256x2.Slices ![0, 0] S256x1
  slices_S256x2_o0_1_S256x1 : S256x2.Slices ![0, 1] S256x1
  broadcasts_S256x1_S256x4096 : S256x1.Broadcasts S256x4096
  broadcasts_S1x4096_S256x4096 : S1x4096.Broadcasts S256x4096
  reduces_S256x4096_S256 : S256x4096.Reduces [1] S256
  shapeCasts_S256_S256x1 : S256.ShapeCasts S256x1
  reduces_S256x1_S1 : S256x1.Reduces [0] S1
  shapeCasts_S1_S1x1 : S1.ShapeCasts S1x1
  reduces_S256x4096_S4096 : S256x4096.Reduces [0] S4096
  inpos_S1x1_p0_0 : ∀ a, (![0, 0] : Fin 2 → Nat) a < S1x1.size a
  reduces_S1x4096_S1 : S1x4096.Reduces [1] S1
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S8x8x128_S8x1x1_0_0_0 : S8x8x128.Slices ![0, 0, 0] S8x1x1
  shapeCasts_S8x1x1_S8 : S8x1x1.ShapeCasts S8
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x2x256.size a ≤ S1x2x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x4096.size a ≤ S8x2x4096.size a
  hwx0_0 : ∀ i : grid0.Coords, EltTy.bits .f32 = 32 ∨ (Rect.block (s := S8x2x4096) S1x2x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x4096.size a ≤ S8x2x4096.size a
  hwx0_1 : ∀ i : grid0.Coords, EltTy.bits .f32 = 32 ∨ (Rect.block (s := S8x2x4096) S1x2x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S8x8x128.size a
  hwx0_2 : ∀ i : grid0.Coords, EltTy.bits .f32 = 32 ∨ (Rect.block (s := S8x8x128) S1x8x128.size (cc0_transform_2 i) (hinb0_2 i)).WholeWords (EltTy.packing .f32)

variable [Facts₀]

abbrev win0_0 : Pipeline.Window sig grid0 :=
  Pipeline.Window.ofSpec (Memref.whole main_v0) S1x2x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096x2 : Shape := ⟨3, ![8, 4096, 2]⟩
abbrev S8 : Shape := ⟨1, ![8]⟩
abbrev S8x4096x1x2 : Shape := ⟨4, ![8, 4096, 1, 2]⟩
abbrev S8x1x4096x2 : Shape := ⟨4, ![8, 1, 4096, 2]⟩
abbrev S8x4096x4096x2 : Shape := ⟨4, ![8, 4096, 4096, 2]⟩
abbrev S_ : Shape := ⟨0, ![]⟩
abbrev S8x4096x4096 : Shape := ⟨3, ![8, 4096, 4096]⟩
abbrev S8x4096 : Shape := ⟨2, ![8, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8x4096x2, .f32⟩
  | .hbm, ⟨1, _⟩ => ⟨S8x4096x2, .f32⟩
  | .hbm, ⟨2, _⟩ => ⟨S8, .f32⟩
  | .hbm, ⟨3, _⟩ => ⟨S8x4096x1x2, .f32⟩
  | .hbm, ⟨4, _⟩ => ⟨S8x1x4096x2, .f32⟩
  | .hbm, ⟨5, _⟩ => ⟨S8x4096x4096x2, .f32⟩
  | .hbm, ⟨6, _⟩ => ⟨S8x4096x4096x2, .f32⟩
  | .hbm, ⟨7, _⟩ => ⟨S8x4096x4096x2, .f32⟩
  | .hbm, ⟨8, _⟩ => ⟨S_, .f32⟩
  | .hbm, ⟨9, _⟩ => ⟨S8x4096x4096x2, .f32⟩
  | .hbm, ⟨10, _⟩ => ⟨S8x4096x4096x2, .f32⟩
  | .hbm, ⟨11, _⟩ => ⟨S8x4096x4096x2, .f32⟩
  | .hbm, ⟨12, _⟩ => ⟨S_, .f32⟩
  | .hbm, ⟨13, _⟩ => ⟨S8x4096x4096, .f32⟩
  | .hbm, ⟨14, _⟩ => ⟨S8x4096x4096, .f32⟩
  | .hbm, ⟨15, _⟩ => ⟨S_, .f32⟩
  | .hbm, ⟨16, _⟩ => ⟨S8x4096, .f32⟩
  | .hbm, ⟨17, _⟩ => ⟨S_, .f32⟩
  | .hbm, ⟨18, _⟩ => ⟨S8, .f32⟩
  | .hbm, ⟨19, _⟩ => ⟨S8x4096x1x2, .f32⟩
  | .hbm, ⟨20, _⟩ => ⟨S8x1x4096x2, .f32⟩
  | .hbm, ⟨21, _⟩ => ⟨S8x4096x4096x2, .f32⟩
  | .hbm, ⟨22, _⟩ => ⟨S8x4096x4096x2, .f32⟩
  | .hbm, ⟨23, _⟩ => ⟨S8x4096x4096x2, .f32⟩
  | .hbm, ⟨24, _⟩ => ⟨S_, .f32⟩
  | .hbm, ⟨25, _⟩ => ⟨S8x4096x4096x2, .f32⟩
  | .hbm, ⟨26, _⟩ => ⟨S8x4096x4096x2, .f32⟩
  | .hbm, ⟨27, _⟩ => ⟨S8x4096x4096x2, .f32⟩
  | .hbm, ⟨28, _⟩ => ⟨S_, .f32⟩
  | .hbm, ⟨29, _⟩ => ⟨S8x4096x4096, .f32⟩
  | .hbm, ⟨30, _⟩ => ⟨S8x4096x4096, .f32⟩
  | .hbm, ⟨31, _⟩ => ⟨S_, .f32⟩
  | .hbm, ⟨32, _⟩ => ⟨S8x4096, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S8, .f32⟩
  | _, _ => ⟨S8x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  bcast_S8x4096x2_S8x4096x1x2_0_1_3 : S8x4096x2.BroadcastsInDim S8x4096x1x2 (![0, 1, 3] : Fin 3 → Fin S8x4096x1x2.rank)
  bcast_S8x4096x2_S8x1x4096x2_0_2_3 : S8x4096x2.BroadcastsInDim S8x1x4096x2 (![0, 2, 3] : Fin 3 → Fin S8x1x4096x2.rank)
  bcast_S8x4096x1x2_S8x4096x4096x2_0_1_2_3 : S8x4096x1x2.BroadcastsInDim S8x4096x4096x2 (![0, 1, 2, 3] : Fin 4 → Fin S8x4096x4096x2.rank)
  bcast_S8x1x4096x2_S8x4096x4096x2_0_1_2_3 : S8x1x4096x2.BroadcastsInDim S8x4096x4096x2 (![0, 1, 2, 3] : Fin 4 → Fin S8x4096x4096x2.rank)
  bcast_S_S8x4096x4096x2 : S_.BroadcastsInDim S8x4096x4096x2 (![] : Fin 0 → Fin S8x4096x4096x2.rank)
  reducesTo_S8x4096x4096x2_S8x4096x4096_d3 : S8x4096x4096x2.ReducesTo [3] S8x4096x4096
  h_S_ : 0 < S_.numel
  reducesTo_S8x4096x4096_S8x4096_d2 : S8x4096x4096.ReducesTo [2] S8x4096
  reducesTo_S8x4096_S8_d1 : S8x4096.ReducesTo [1] S8

variable [Facts₀]

class Facts : Prop extends Facts₀ where

variable [Facts]
-- ==== Proof.Consts.lean ====
/-
  The float constants of the two programs, as the extended reals their words denote.

  The reference adds `ε`, the single-precision word nearest to 10⁻⁶: `ε = 8796093 / 2⁴³`. The kernel multiplies by the
  word one binade up, which is exactly `2 ε`. Both reductions start from the two infinities, and the
  reference's sum over the two coordinates starts from zero.
-/
import Idealize.ShloMosaic.PureOps.Ideal

noncomputable section

namespace Cert.Consts

open Idealize.ShloMosaic

/-- The real number `ε`: the value of the single-precision word nearest to 10⁻⁶. -/
def eps : ℝ := 8796093 / 8796093022208

theorem ofBits_eps : Ideal.ofBits .f32 0x358637BD#32 = ((eps : ℝ) : EReal) := by
  simp [Ideal.ofBits, Ideal.ieee, -EReal.coe_mul, eps]; norm_num

/-- The kernel's cross-term coefficient is exactly `2 ε`: the same significand, one binade up. -/
theorem ofBits_two_eps : Ideal.ofBits .f32 0x360637BD#32 = ((2 * eps : ℝ) : EReal) := by
  simp [Ideal.ofBits, Ideal.ieee, -EReal.coe_mul, eps]; norm_num

theorem ofBits_pos_inf : Ideal.ofBits .f32 0x7F800000#32 = ⊤ := by
  simp [Ideal.ofBits, Ideal.ieee]

theorem ofBits_neg_inf : Ideal.ofBits .f32 0xFF800000#32 = ⊥ := by
  simp [Ideal.ofBits, Ideal.ieee]

theorem ofBits_zero : Ideal.ofBits .f32 0x00000000#32 = 0 := by
  simp [Ideal.ofBits, Ideal.ieee]

/-- The kernel's constant term, named `2 ε²` by the certificate's table, is that real. -/
theorem two_eps_sq : ((77371252064649 / 38685626227668133590597632 : ℝ)) = 2 * eps * eps := by
  unfold eps; norm_num

end Cert.Consts

end
-- ==== Proof.Distance.lean ====
/-
  The two algebraic facts that join the kernel to the reference, on the extended reals.

  * The squared `ε`-shifted distance `(p - q + ε)² + (p' - q' + ε)²` between two FINITE points expands to
    `(dx² + dy²) + 2ε (dx + dy) + 2ε²` with `dx = p - q`, `dy = p' - q'`; with the roles of the two points exchanged it is
    `(dx² + dy²) - 2ε (dx + dy) + 2ε²` over the SAME `dx, dy`. Finiteness is needed: the expansion distributes a
    product over a sum.
  * The square root of the extended reals (`⊥` below zero, `√⊤ = ⊤`) is monotone, so it commutes with
    finite minima and maxima.
-/
import Idealize.ShloMosaic.PureOps.Ideal
import proofs.«411535_j77386720740128_3_alg».proof.Proof.Consts

noncomputable section

namespace Cert.Distance

open Idealize.ShloMosaic Cert.Consts

/-- The squared `ε`-shifted distance from the point `(qx, qy)` to the point `(px, py)`: the reference's
    `Σ_d (p_d - q_d + ε)²`, its sum over the two coordinates started from zero. -/
def sqDist (px py qx qy : EReal) : EReal :=
  0 + ((px - qx + (eps : ℝ)) * (px - qx + (eps : ℝ)) + (py - qy + (eps : ℝ)) * (py - qy + (eps : ℝ)))

/-- The kernel's expansion toward the first point: `sq + 2ε · cross + 2ε²`. -/
def expandPlus (px py qx qy : EReal) : EReal :=
  (((px - qx) * (px - qx) + (py - qy) * (py - qy)) + ((2 * eps : ℝ) : EReal) * ((px - qx) + (py - qy)))
    + ((2 * eps * eps : ℝ) : EReal)

/-- The kernel's expansion toward the second point, over the same differences: `sq - 2ε · cross + 2ε²`. -/
def expandMinus (px py qx qy : EReal) : EReal :=
  (((px - qx) * (px - qx) + (py - qy) * (py - qy)) - ((2 * eps : ℝ) : EReal) * ((px - qx) + (py - qy)))
    + ((2 * eps * eps : ℝ) : EReal)

theorem expandPlus_eq (px py qx qy : ℝ) :
    expandPlus (px : EReal) py qx qy = sqDist (px : EReal) py qx qy := by
  unfold expandPlus sqDist
  rw [zero_add]
  simp only [← EReal.coe_sub, ← EReal.coe_add, ← EReal.coe_mul]
  congr 1; ring

theorem expandMinus_eq (px py qx qy : ℝ) :
    expandMinus (px : EReal) py qx qy = sqDist (qx : EReal) qy px py := by
  unfold expandMinus sqDist
  rw [zero_add]
  simp only [← EReal.coe_sub, ← EReal.coe_add, ← EReal.coe_mul]
  congr 1; ring

/-- The extended reals' square root is monotone: below zero it is the bottom element, on the nonnegative reals it is
    the real square root, and it keeps `⊤`. -/
theorem sqrt_mono : Monotone Ideal.sqrt := by
  intro x y hxy
  induction x with
  | bot => exact bot_le
  | top => rw [top_le_iff.mp hxy]
  | coe r =>
    induction y with
    | bot => exact absurd hxy (by simp)
    | top => exact le_top
    | coe s =>
      have hrs : r ≤ s := EReal.coe_le_coe_iff.mp hxy
      rw [Ideal.sqrt_coe, Ideal.sqrt_coe]
      by_cases hr : r < 0
      · rw [if_pos hr]; exact bot_le
      · rw [if_neg hr, if_neg (not_lt.mpr (le_trans (not_lt.mp hr) hrs))]
        exact EReal.coe_le_coe_iff.mpr (Real.sqrt_le_sqrt hrs)

end Cert.Distance

end
-- ==== Proof.LibFoldLattice.lean ====
/-
  Order-theoretic lemmas about folds of `max` / `min` over a finite index type, in a complete linear order
  (the extended reals are one).

  * A fold of `max` from `b` over all of a finite type is `b ⊔ ⨆ i, f i`; dually for `min`.
  * A monotone map commutes with the supremum and the infimum of a finite nonempty family (the family
    attains them).
  * A supremum over `Fin (K * R)` is the supremum over `K` blocks of `R` consecutive indices; dually.
  * The supremum over the blocks before `k + 1` is the one over the blocks before `k` joined with block `k`
    (the step of a running maximum accumulated block by block); dually for a running minimum.
-/
import Mathlib.Data.Finset.Fold
import Mathlib.Order.CompleteLattice.Basic
import Mathlib.Order.ConditionallyCompleteLattice.Finset
import Mathlib.Data.Fintype.Basic

namespace Cert.LibFoldLattice

section fold
variable {ι α : Type*} [Fintype ι] [CompleteLinearOrder α]

/-- Folding `max` from `b` over every index is `b` joined with the supremum of the family. -/
theorem fold_max_univ (b : α) (f : ι → α) :
    (Finset.univ : Finset ι).fold max b f = b ⊔ ⨆ i, f i := by
  refine eq_of_forall_ge_iff fun c => ?_
  rw [Finset.fold_max_le, sup_le_iff, iSup_le_iff]
  simp

/-- Folding `min` from `b` over every index is `b` met with the infimum of the family. -/
theorem fold_min_univ (b : α) (f : ι → α) :
    (Finset.univ : Finset ι).fold min b f = b ⊓ ⨅ i, f i := by
  refine eq_of_forall_le_iff fun c => ?_
  rw [Finset.le_fold_min, le_inf_iff, le_iInf_iff]
  simp

theorem fold_max_univ_bot (f : ι → α) : (Finset.univ : Finset ι).fold max ⊥ f = ⨆ i, f i := by
  rw [fold_max_univ, bot_sup_eq]

theorem fold_min_univ_top (f : ι → α) : (Finset.univ : Finset ι).fold min ⊤ f = ⨅ i, f i := by
  rw [fold_min_univ, top_inf_eq]

end fold

section mono
variable {ι α β : Type*} [Finite ι] [Nonempty ι] [CompleteLinearOrder α] [CompleteLinearOrder β]

/-- A monotone map commutes with the supremum of a finite nonempty family: the family attains it. -/
theorem map_iSup_of_finite {f : α → β} (hf : Monotone f) (g : ι → α) : f (⨆ i, g i) = ⨆ i, f (g i) := by
  obtain ⟨i₀, hi₀⟩ := exists_eq_ciSup_of_finite (f := g)
  refine le_antisymm ?_ (iSup_le fun i => hf (le_iSup g i))
  rw [← hi₀]; exact le_iSup (fun i => f (g i)) i₀

/-- A monotone map commutes with the infimum of a finite nonempty family. -/
theorem map_iInf_of_finite {f : α → β} (hf : Monotone f) (g : ι → α) : f (⨅ i, g i) = ⨅ i, f (g i) := by
  obtain ⟨i₀, hi₀⟩ := exists_eq_ciInf_of_finite (f := g)
  refine le_antisymm (le_iInf fun i => hf (iInf_le g i)) ?_
  rw [← hi₀]; exact iInf_le (fun i => f (g i)) i₀

end mono

section blocks
variable {α : Type*} [CompleteLattice α]

/-- Index `r` of block `k`, of `K` blocks of `R` indices each, is an index below `K * R`. -/
theorem blk_lt {K R : ℕ} (k : Fin K) (r : Fin R) : R * k.val + r.val < K * R := by
  have h1 : R * k.val + r.val < R * (k.val + 1) := by rw [Nat.mul_succ]; exact Nat.add_lt_add_left r.isLt _
  have h2 : R * (k.val + 1) ≤ R * K := Nat.mul_le_mul_left R k.isLt
  rw [Nat.mul_comm K R]; exact lt_of_lt_of_le h1 h2

/-- The index `R * k + r` of `Fin N`, when `N = K * R`. -/
def blkIdx {N K R : ℕ} (h : N = K * R) (k : Fin K) (r : Fin R) : Fin N := ⟨R * k.val + r.val, h ▸ blk_lt k r⟩

@[simp] theorem blkIdx_val {N K R : ℕ} (h : N = K * R) (k : Fin K) (r : Fin R) : (blkIdx h k r).val = R * k.val + r.val := rfl

/-- Every index below `K * R` is index `j % R` of block `j / R`. -/
theorem exists_blkIdx {N K R : ℕ} (h : N = K * R) (j : Fin N) : ∃ (k : Fin K) (r : Fin R), j = blkIdx h k r := by
  have hj : j.val < K * R := h ▸ j.isLt
  have hR : 0 < R := by
    rcases Nat.eq_zero_or_pos R with h0 | h0
    · rw [h0, Nat.mul_zero] at hj; exact absurd hj (Nat.not_lt_zero _)
    · exact h0
  refine ⟨⟨j.val / R, (Nat.div_lt_iff_lt_mul hR).2 hj⟩, ⟨j.val % R, Nat.mod_lt _ hR⟩, Fin.ext ?_⟩
  exact (Nat.div_add_mod j.val R).symm

/-- A supremum over `K * R` indices, block by block. -/
theorem iSup_blocks {N K R : ℕ} (h : N = K * R) (g : Fin N → α) :
    (⨆ j, g j) = ⨆ (k : Fin K) (r : Fin R), g (blkIdx h k r) := by
  refine le_antisymm (iSup_le fun j => ?_) (iSup_le fun k => iSup_le fun r => le_iSup g _)
  obtain ⟨k, r, rfl⟩ := exists_blkIdx h j
  exact le_iSup_of_le k (le_iSup (fun r => g (blkIdx h k r)) r)

/-- An infimum over `K * R` indices, block by block. -/
theorem iInf_blocks {N K R : ℕ} (h : N = K * R) (g : Fin N → α) :
    (⨅ j, g j) = ⨅ (k : Fin K) (r : Fin R), g (blkIdx h k r) := by
  refine le_antisymm (le_iInf fun k => le_iInf fun r => iInf_le g _) (le_iInf fun j => ?_)
  obtain ⟨k, r, rfl⟩ := exists_blkIdx h j
  exact iInf_le_of_le k (iInf_le (fun r => g (blkIdx h k r)) r)

/-- No block comes before block `0`. -/
theorem iSup_lt_zero {K : ℕ} (g : Fin K → α) : (⨆ (k' : Fin K) (_ : k'.val < 0), g k') = ⊥ := by
  simp

theorem iInf_lt_zero {K : ℕ} (g : Fin K → α) : (⨅ (k' : Fin K) (_ : k'.val < 0), g k') = ⊤ := by
  simp

/-- The running supremum's step: the blocks before `k + 1` are those before `k`, and block `k`. -/
theorem iSup_lt_succ {K : ℕ} (g : Fin K → α) (k : ℕ) (hk : k < K) :
    (⨆ (k' : Fin K) (_ : k'.val < k + 1), g k') = (⨆ (k' : Fin K) (_ : k'.val < k), g k') ⊔ g ⟨k, hk⟩ := by
  refine le_antisymm (iSup_le fun k' => iSup_le fun h => ?_) (sup_le (iSup_le fun k' => iSup_le fun h => ?_) ?_)
  · rcases Nat.lt_succ_iff_lt_or_eq.mp h with h | h
    · exact le_sup_of_le_left (le_iSup_of_le k' (le_iSup_of_le h le_rfl))
    · obtain rfl : k' = ⟨k, hk⟩ := Fin.ext h
      exact le_sup_right
  · exact le_iSup_of_le k' (le_iSup_of_le (Nat.lt_succ_of_lt h) le_rfl)
  · exact le_iSup_of_le ⟨k, hk⟩ (le_iSup_of_le (Nat.lt_succ_self k) le_rfl)

/-- The running infimum's step. -/
theorem iInf_lt_succ {K : ℕ} (g : Fin K → α) (k : ℕ) (hk : k < K) :
    (⨅ (k' : Fin K) (_ : k'.val < k + 1), g k') = (⨅ (k' : Fin K) (_ : k'.val < k), g k') ⊓ g ⟨k, hk⟩ := by
  refine le_antisymm (le_inf (le_iInf fun k' => le_iInf fun h => ?_) ?_) (le_iInf fun k' => le_iInf fun h => ?_)
  · exact iInf_le_of_le k' (iInf_le_of_le (Nat.lt_succ_of_lt h) le_rfl)
  · exact iInf_le_of_le ⟨k, hk⟩ (iInf_le_of_le (Nat.lt_succ_self k) le_rfl)
  · rcases Nat.lt_succ_iff_lt_or_eq.mp h with h | h
    · exact inf_le_of_left_le (iInf_le_of_le k' (iInf_le_of_le h le_rfl))
    · obtain rfl : k' = ⟨k, hk⟩ := Fin.ext h
      exact inf_le_right

/-- Every block comes before block `K`. -/
theorem iSup_lt_all {K : ℕ} (g : Fin K → α) : (⨆ (k' : Fin K) (_ : k'.val < K), g k') = ⨆ k', g k' := by
  simp

theorem iInf_lt_all {K : ℕ} (g : Fin K → α) : (⨅ (k' : Fin K) (_ : k'.val < K), g k') = ⨅ k', g k' := by
  simp

end blocks

end Cert.LibFoldLattice
-- ==== Proof.Spec.lean ====
/-
  The specification both programs meet, and the bridge between its two spellings.

  A contour is an array `[8, 4096, 2]` of extended reals: batch, point, coordinate. For a batch `b`, the DIRECTED
  distance from contour `P` to contour `Q` is the supremum over the points `p` of `P` of the infimum over the points `q`
  of `Q` of `√((p₀ - q₀ + ε)² + (p₁ - q₁ + ε)²)`. The result at `b` is the larger of the two directed distances,
  times the resolution at `b` (`G`: the reference computes exactly this).

  The kernel takes one square root, after both reductions, of the expanded squares (`KG`). On FINITE contours the
  expanded squares are the squared distances (`Distance.expandPlus_eq`, `expandMinus_eq`), and the square root,
  being monotone, passes through the maximum, the suprema and the infima of nonempty finite families: `KG = G`.
-/
import Idealize.ShloMosaic.Lib.ValueIdx
import proofs.«411535_j77386720740128_3_alg».proof.Proof.Distance
import proofs.«411535_j77386720740128_3_alg».proof.Proof.LibFoldLattice

noncomputable section

namespace Cert.Spec

open Idealize.ShloMosaic Idealize.ShloMosaic.ValueIdx Cert.Distance Cert.LibFoldLattice

/-- A batch of contours: `[8, 4096, 2]` extended reals. -/
abbrev Pts : Type := (⟨3, ![8, 4096, 2]⟩ : Shape).Idx → EReal
/-- One extended real per batch. -/
abbrev Scal : Type := (⟨1, ![8]⟩ : Shape).Idx → EReal

/-- The directed `ε`-shifted distance from contour `P` to contour `Q` in batch `b`. -/
def directed (P Q : Pts) (b : Fin 8) : EReal :=
  ⨆ j : Fin 4096, ⨅ i : Fin 4096,
    Ideal.sqrt (sqDist (P (ix3 b j 0)) (P (ix3 b j 1)) (Q (ix3 b i 0)) (Q (ix3 b i 1)))

/-- The symmetric distance in batch `b`: the larger of the two directed distances. -/
def Gb (c1 c2 : Pts) (b : Fin 8) : EReal := max (directed c1 c2 b) (directed c2 c1 b)

/-- The result: the symmetric distance, times the resolution. -/
def G (c1 c2 : Pts) (res : Scal) : Scal :=
  fun j => Gb c1 c2 (j 0) * res j

/-- The kernel's first accumulator, before the root: over the points `j` of the second contour, the least expanded
    square toward the points `i` of the first. -/
def sqToward (c1 c2 : Pts) (b : Fin 8) : EReal :=
  ⨆ j : Fin 4096, ⨅ i : Fin 4096,
    expandPlus (c2 (ix3 b j 0)) (c2 (ix3 b j 1)) (c1 (ix3 b i 0)) (c1 (ix3 b i 1))

/-- The kernel's second accumulator, before the root: over the points `i` of the first contour, the least expanded
    square (with the cross term's sign turned) toward the points `j` of the second. -/
def sqFrom (c1 c2 : Pts) (b : Fin 8) : EReal :=
  ⨆ i : Fin 4096, ⨅ j : Fin 4096,
    expandMinus (c2 (ix3 b j 0)) (c2 (ix3 b j 1)) (c1 (ix3 b i 0)) (c1 (ix3 b i 1))

/-- The kernel's value in batch `b`: one root of the larger accumulator. -/
def KGb (c1 c2 : Pts) (b : Fin 8) : EReal := Ideal.sqrt (max (sqToward c1 c2 b) (sqFrom c1 c2 b))

/-- The kernel's result: that root, times the resolution. -/
def KG (c1 c2 : Pts) (res : Scal) : Scal :=
  fun j => KGb c1 c2 (j 0) * res j

/-- A contour is finite when no entry is an infinity. -/
def Finite (P : Pts) : Prop := ∀ x, P x ≠ ⊤ ∧ P x ≠ ⊥

theorem sqrt_sqToward (c1 c2 : Pts) (h1 : Finite c1) (h2 : Finite c2) (b : Fin 8) :
    Ideal.sqrt (sqToward c1 c2 b) = directed c2 c1 b := by
  unfold sqToward directed
  rw [map_iSup_of_finite sqrt_mono]
  refine iSup_congr fun j => ?_
  rw [map_iInf_of_finite sqrt_mono]
  refine iInf_congr fun i => ?_
  obtain ⟨px, hpx⟩ := EReal.canLift.prf _ (h2 (ix3 b j 0))
  obtain ⟨py, hpy⟩ := EReal.canLift.prf _ (h2 (ix3 b j 1))
  obtain ⟨qx, hqx⟩ := EReal.canLift.prf _ (h1 (ix3 b i 0))
  obtain ⟨qy, hqy⟩ := EReal.canLift.prf _ (h1 (ix3 b i 1))
  rw [← hpx, ← hpy, ← hqx, ← hqy, expandPlus_eq]

theorem sqrt_sqFrom (c1 c2 : Pts) (h1 : Finite c1) (h2 : Finite c2) (b : Fin 8) :
    Ideal.sqrt (sqFrom c1 c2 b) = directed c1 c2 b := by
  unfold sqFrom directed
  rw [map_iSup_of_finite sqrt_mono]
  refine iSup_congr fun i => ?_
  rw [map_iInf_of_finite sqrt_mono]
  refine iInf_congr fun j => ?_
  obtain ⟨px, hpx⟩ := EReal.canLift.prf _ (h2 (ix3 b j 0))
  obtain ⟨py, hpy⟩ := EReal.canLift.prf _ (h2 (ix3 b j 1))
  obtain ⟨qx, hqx⟩ := EReal.canLift.prf _ (h1 (ix3 b i 0))
  obtain ⟨qy, hqy⟩ := EReal.canLift.prf _ (h1 (ix3 b i 1))
  rw [← hpx, ← hpy, ← hqx, ← hqy, expandMinus_eq]

/-- On finite contours the kernel's spelling is the reference's. -/
theorem KGb_eq_Gb (c1 c2 : Pts) (h1 : Finite c1) (h2 : Finite c2) (b : Fin 8) : KGb c1 c2 b = Gb c1 c2 b := by
  unfold KGb Gb
  rw [sqrt_mono.map_max, sqrt_sqToward c1 c2 h1 h2, sqrt_sqFrom c1 c2 h1 h2, max_comm]

theorem KG_eq_G (c1 c2 : Pts) (res : Scal) (h1 : Finite c1) (h2 : Finite c2) : KG c1 c2 res = G c1 c2 res :=
  funext fun j => congrArg (· * res j) (KGb_eq_Gb c1 c2 h1 h2 _)

end Cert.Spec

end
-- ==== Proof.KernelBody.lean ====
/-
  The kernel body's arithmetic, read index by index on the extended reals.
-/
import proofs.«411535_j77386720740128_3_alg».proof.Proof.Gen.KernelIdeal.Skeleton
import proofs.«411535_j77386720740128_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.TcCoe Idealize.ShloMosaic.ValueIdx
open Cert.KernelIdeal Cert.KernelIdeal.Gen Cert.Distance Cert.Consts Cert.LibFoldLattice

variable {α : Type}

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The first coordinates' difference: tile point `r` of the second contour minus point `i` of the first. -/
theorem tile_dx (v0 : FVec Ideal S1x2x4096 .f32) (v25 : FVec Ideal S1x2x256 .f32) (r : Fin 256) (i : Fin 4096) :
    k0_pay5 (F := Ideal) v0 v25 (ix2 r i) = v25 (ix3 0 0 r) - v0 (ix3 0 0 i) := by
  unfold k0_pay5 k0_pay1 k0_pay4
  dsimp only
  rw [subf_apply, broadcastTo_a1_ab_apply, broadcastTo_1b_ab_apply]
  rw [slice2_axis1_apply 0 _ _ r (0 : Fin 1) (0 : Fin 2) rfl, transpose_ix2_apply, shapeCast_1ab_ab_apply]
  rw [shapeCast_a_1a_apply, shapeCast_1a_a_apply, slice2_axis0_apply 0 _ _ (0 : Fin 1) i (0 : Fin 2) rfl, shapeCast_1ab_ab_apply]

/-- The second coordinates' difference. -/
theorem tile_dy (v0 : FVec Ideal S1x2x4096 .f32) (v25 : FVec Ideal S1x2x256 .f32) (r : Fin 256) (i : Fin 4096) :
    k0_pay6 (F := Ideal) v0 v25 (ix2 r i) = v25 (ix3 0 1 r) - v0 (ix3 0 1 i) := by
  unfold k0_pay6 k0_pay1 k0_pay4
  dsimp only
  rw [subf_apply, broadcastTo_a1_ab_apply, broadcastTo_1b_ab_apply]
  rw [slice2_axis1_apply 1 _ _ r (0 : Fin 1) (1 : Fin 2) rfl, transpose_ix2_apply, shapeCast_1ab_ab_apply]
  rw [shapeCast_a_1a_apply, shapeCast_1a_a_apply, slice2_axis0_apply 1 _ _ (0 : Fin 1) i (1 : Fin 2) rfl, shapeCast_1ab_ab_apply]

/-- A float `vector.multi_reduction <minimumf>` over one axis, on the extended reals: the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A fold of `max` from a start value that is `⊥` is the supremum. -/
theorem fold_max_of_bot {ι : Type} [Fintype ι] {b : EReal} (hb : b = ⊥) (f : ι → EReal) :
    (Finset.univ : Finset ι).fold max b f = ⨆ i, f i := by subst hb; exact fold_max_univ_bot f

/-- A fold of `min` from a start value that is `⊤` is the infimum. -/
theorem fold_min_of_top {ι : Type} [Fintype ι] {b : EReal} (hb : b = ⊤) (f : ι → EReal) :
    (Finset.univ : Finset ι).fold min b f = ⨅ i, f i := by subst hb; exact fold_min_univ_top f

/-- The minimum of each row of a `[256, 4096]` tile, from `+∞`. -/
theorem rowMin_apply (Y : FVec Ideal S256x4096 .f32) (r : Fin 256) :
    multiReduction .minimumf [1] S256 Y 0x7F800000#32 reduces_S256x4096_S256 (.inl rfl) rfl (ix1 r) = ⨅ i : Fin 4096, Y (ix2 r i) := by
  refine (multiReduction_minimumf_single _ _ _ _ _ _).trans ?_
  refine (fold_min_of_top ofBits_pos_inf _).trans ?_
  refine iInf_congr fun i => ?_
  show Y (reduces_S256x4096_S256.lift (ix1 r) i) = _
  exact congrArg Y (funext fun a => Fin.ext (by match a with | ⟨0, _⟩ => rfl | ⟨1, _⟩ => rfl))

/-- The minimum of each column of a `[256, 4096]` tile, from `+∞`. -/
theorem colMin_apply (Y : FVec Ideal S256x4096 .f32) (i : Fin 4096) :
    multiReduction .minimumf [0] S4096 Y 0x7F800000#32 reduces_S256x4096_S4096 (.inl rfl) rfl (ix1 i) = ⨅ r : Fin 256, Y (ix2 r i) := by
  refine (multiReduction_minimumf_single _ _ _ _ _ _).trans ?_
  refine (fold_min_of_top ofBits_pos_inf _).trans ?_
  refine iInf_congr fun r => ?_
  show Y (reduces_S256x4096_S4096.lift (ix1 i) r) = _
  exact congrArg Y (funext fun a => Fin.ext (by match a with | ⟨0, _⟩ => rfl | ⟨1, _⟩ => rfl))

/-- The maximum of a column of 256 values, from `-∞`. -/
theorem colMax_apply (X : FVec Ideal S256 .f32) :
    multiReduction .maximumf [0] S1 (shapeCast S256x1 X shapeCasts_S256_S256x1) 0xFF800000#32 reduces_S256x1_S1 (.inl rfl) rfl (ix1 0)
      = ⨆ r : Fin 256, X (ix1 r) := by
  refine (Ideal.multiReduction_maximumf_single _ _ _ _ _ _).trans ?_
  refine (fold_max_of_bot ofBits_neg_inf _).trans ?_
  refine iSup_congr fun r => ?_
  show shapeCast S256x1 X shapeCasts_S256_S256x1 (reduces_S256x1_S1.lift (ix1 0) r) = _
  have hl : reduces_S256x1_S1.lift (ix1 (0 : Fin 1)) r = ix2 r (0 : Fin 1) :=
    funext fun a => Fin.ext (by match a with | ⟨0, _⟩ => rfl | ⟨1, _⟩ => rfl)
  rw [hl]
  exact shapeCast_a_a1_apply X shapeCasts_S256_S256x1 r (0 : Fin 1)

/-- The maximum of a row of 4096 values, from `-∞`. -/
theorem rowMax_apply (Z : FVec Ideal S1x4096 .f32) :
    multiReduction .maximumf [1] S1 Z 0xFF800000#32 reduces_S1x4096_S1 (.inl rfl) rfl (ix1 0) = ⨆ i : Fin 4096, Z (ix2 0 i) := by
  refine (Ideal.multiReduction_maximumf_single _ _ _ _ _ _).trans ?_
  refine (fold_max_of_bot ofBits_neg_inf _).trans ?_
  refine iSup_congr fun i => ?_
  show Z (reduces_S1x4096_S1.lift (ix1 0) i) = _
  exact congrArg Z (funext fun a => Fin.ext (by match a with | ⟨0, _⟩ => rfl | ⟨1, _⟩ => rfl))

/-- The table's entry: the kernel's constant term is `2 ε²`. -/
theorem named_two_eps_sq :
    Named.named (F := Ideal) κ "two_eps_sq" (φ := .f32) 0x2C0CBCCC#32 = ((2 * eps * eps : ℝ) : EReal) := by
  rw [← two_eps_sq]
  exact IdealRules.named_const.ideal_named_scalar _ _ _ _ rfl

/-- The tile of expanded squares toward the first contour: `sq + 2ε · cross + 2ε²`. -/
def plusTile (v0 : FVec Ideal S1x2x4096 .f32) (v25 : FVec Ideal S1x2x256 .f32) : FVec Ideal S256x4096 .f32 :=
  addf (addf (k0_pay7 (F := Ideal) v0 v25) (mulf (broadcast S256x4096 (Scalar.ofBits (F := Ideal) .f32 0x360637BD#32)) (k0_pay8 (F := Ideal) v0 v25)))
    (broadcast S256x4096 (Named.named (F := Ideal) κ "two_eps_sq" (φ := .f32) 0x2C0CBCCC#32))

/-- The tile with the cross term's sign turned: `sq - 2ε · cross + 2ε²`. -/
def minusTile (v0 : FVec Ideal S1x2x4096 .f32) (v25 : FVec Ideal S1x2x256 .f32) : FVec Ideal S256x4096 .f32 :=
  addf (subf (k0_pay7 (F := Ideal) v0 v25) (mulf (broadcast S256x4096 (Scalar.ofBits (F := Ideal) .f32 0x360637BD#32)) (k0_pay8 (F := Ideal) v0 v25)))
    (broadcast S256x4096 (Named.named (F := Ideal) κ "two_eps_sq" (φ := .f32) 0x2C0CBCCC#32))

theorem plusTile_apply (v0 : FVec Ideal S1x2x4096 .f32) (v25 : FVec Ideal S1x2x256 .f32) (r : Fin 256) (i : Fin 4096) :
    plusTile v0 v25 (ix2 r i) = expandPlus (v25 (ix3 0 0 r)) (v25 (ix3 0 1 r)) (v0 (ix3 0 0 i)) (v0 (ix3 0 1 i)) := by
  unfold plusTile k0_pay7 k0_pay8 expandPlus
  dsimp only
  rw [addf_apply, addf_apply, mulf_apply, broadcast_apply, broadcast_apply, addf_apply, mulf_apply, mulf_apply, addf_apply,
    tile_dx, tile_dy, named_two_eps_sq]
  show _ + Ideal.ofBits .f32 0x360637BD#32 * _ + _ = _
  rw [ofBits_two_eps]

theorem minusTile_apply (v0 : FVec Ideal S1x2x4096 .f32) (v25 : FVec Ideal S1x2x256 .f32) (r : Fin 256) (i : Fin 4096) :
    minusTile v0 v25 (ix2 r i) = expandMinus (v25 (ix3 0 0 r)) (v25 (ix3 0 1 r)) (v0 (ix3 0 0 i)) (v0 (ix3 0 1 i)) := by
  unfold minusTile k0_pay7 k0_pay8 expandMinus
  dsimp only
  rw [addf_apply, subf_apply, mulf_apply, broadcast_apply, broadcast_apply, addf_apply, mulf_apply, mulf_apply, addf_apply,
    tile_dx, tile_dy, named_two_eps_sq]
  show _ - Ideal.ofBits .f32 0x360637BD#32 * _ + _ = _
  rw [ofBits_two_eps]

/-- One trip's running maximum: the carried value joined with the tile's largest row minimum. -/
theorem pay9_apply (v0 : FVec Ideal S1x2x4096 .f32) (arg5 : FVec Ideal S1x1 .f32) (v25 : FVec Ideal S1x2x256 .f32) :
    k0_pay9 (F := Ideal) v0 arg5 v25 (ix2 0 0)
      = max (arg5 (ix2 0 0)) (⨆ r : Fin 256, ⨅ i : Fin 4096,
          expandPlus (v25 (ix3 0 0 r)) (v25 (ix3 0 1 r)) (v0 (ix3 0 0 i)) (v0 (ix3 0 1 i))) := by
  show maximumf arg5 (shapeCast S1x1 (multiReduction .maximumf [0] S1 (shapeCast S256x1
      (multiReduction .minimumf [1] S256 (plusTile v0 v25) 0x7F800000#32 reduces_S256x4096_S256 (.inl rfl) rfl)
      shapeCasts_S256_S256x1) 0xFF800000#32 reduces_S256x1_S1 (.inl rfl) rfl) shapeCasts_S1_S1x1) (ix2 0 0) = _
  rw [maximumf_apply, shapeCast_a_1a_apply]
  refine congrArg (max _) ?_
  refine (colMax_apply _).trans ?_
  refine iSup_congr fun r => ?_
  refine (rowMin_apply _ r).trans ?_
  refine iInf_congr fun i => ?_
  exact plusTile_apply v0 v25 r i

/-- One trip's running minimum at column `i`: the carried value met with the tile's column minimum. -/
theorem pay10_apply (v0 : FVec Ideal S1x2x4096 .f32) (arg6 : FVec Ideal S1x4096 .f32) (v25 : FVec Ideal S1x2x256 .f32) (i : Fin 4096) :
    k0_pay10 (F := Ideal) v0 arg6 v25 (ix2 0 i)
      = min (arg6 (ix2 0 i)) (⨅ r : Fin 256,
          expandMinus (v25 (ix3 0 0 r)) (v25 (ix3 0 1 r)) (v0 (ix3 0 0 i)) (v0 (ix3 0 1 i))) := by
  show minimumf arg6 (shapeCast S1x4096 (multiReduction .minimumf [0] S4096 (minusTile v0 v25) 0x7F800000#32
      reduces_S256x4096_S4096 (.inl rfl) rfl) shapeCasts_S4096_S1x4096) (ix2 0 i) = _
  rw [minimumf_apply, shapeCast_a_1a_apply]
  refine congrArg (min _) ?_
  refine (colMin_apply _ i).trans ?_
  refine iInf_congr fun r => ?_
  exact minusTile_apply v0 v25 r i

/-- Reading a `[1, 1]` vector at its one position. -/
theorem extractAt_11 (x : FVec Ideal S1x1 .f32) : extractAt ![0, 0] x inpos_S1x1_p0_0 = x (ix2 0 0) :=
  congrArg x (funext fun a => Fin.ext (by match a with | ⟨0, _⟩ => rfl | ⟨1, _⟩ => rfl))

/-- The stored block: every entry is the root of the larger of the two accumulators' maxima. -/
theorem pay11_apply (v11_0 : FVec Ideal S1x1 .f32) (v11_1 : FVec Ideal S1x4096 .f32) (u : Fin 1) (s : Fin 8) (l : Fin 128) :
    k0_pay11 (F := Ideal) v11_0 v11_1 (ix3 u s l)
      = Ideal.sqrt (max (v11_0 (ix2 0 0)) (⨆ i : Fin 4096, v11_1 (ix2 0 i))) := by
  unfold k0_pay11
  dsimp only
  rw [shapeCast_ab_1ab_apply, broadcast_apply]
  show Ideal.sqrt (max (extractAt ![0, 0] v11_0 inpos_S1x1_p0_0)
    (extractAt ![0, 0] (shapeCast S1x1 _ shapeCasts_S1_S1x1) inpos_S1x1_p0_0)) = _
  refine congrArg Ideal.sqrt ?_
  refine congr (congrArg max (extractAt_11 v11_0)) ?_
  refine (extractAt_11 _).trans ?_
  refine (shapeCast_a_1a_apply _ shapeCasts_S1_S1x1 (0 : Fin 1) (0 : Fin 1)).trans ?_
  exact rowMax_apply v11_1

/-- The loop's first initial value: `-∞`. -/
theorem pay2_apply : k0_pay2 (F := Ideal) (ix2 0 0) = ⊥ := by
  show Ideal.ofBits .f32 0xFF800000#32 = ⊥
  exact ofBits_neg_inf

/-- The loop's second initial value: `+∞` in every column. -/
theorem pay3_apply (i : Fin 4096) : k0_pay3 (F := Ideal) (ix2 0 i) = ⊤ := by
  show Ideal.ofBits .f32 0x7F800000#32 = ⊤
  exact ofBits_pos_inf

end Cert.KernelIdeal.Body

end
-- ==== Proof.KernelLoop.lean ====
/-
  The kernel's loop over the sixteen tiles of the second contour, and what the body leaves in its output block.

  Trip `k` loads the 256 points `256 k, …, 256 k + 255` of the second contour's block, joins the running maximum with
  the largest, over those points, of the least expanded square toward the first contour's points, and meets the
  running minimum at each column with the least expanded square over those points. So before trip `k` the running
  maximum is the supremum over the points of the first `k` tiles, and the running minimum the infimum over them; after
  the sixteenth trip they range over all 4096 points. The stored block is the root of the larger of the running maximum
  and the largest running minimum, at every entry.
-/
import proofs.«411535_j77386720740128_3_alg».proof.Proof.Gen.KernelIdeal.Frame
import proofs.«411535_j77386720740128_3_alg».proof.Proof.KernelBody
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Loop

open Cert.KernelIdeal Cert.KernelIdeal.Gen Cert.KernelIdeal.Body Cert.Distance Cert.LibFoldLattice

theorem hz3 : (![0, 0, 0] : Fin 3 → Nat) = fun _ => 0 := funext fun a => by fin_cases a <;> rfl

/-- The loop runs sixteen trips. -/
theorem trips_eq : k0_t1_loop.trips = 16 := by decide +kernel

/-- Point `r` of tile `k`: point `256 k + r` of the block. -/
abbrev pt (k : Fin 16) (r : Fin 256) : Fin 4096 := blkIdx (N := 4096) (K := 16) (R := 256) (by norm_num) k r

section generic
variable {F : FTy → Type} [FloatOps F] [Named F]

/-- The tile trip `k` loads: 256 consecutive points of the second contour's block. -/
abbrev tile (x1 : Vec F S1x2x4096 .f32) (k : Fin k0_t1_loop.trips) : Vec F S1x2x256 .f32 :=
  View.ld x1 (Rect.unit (s := S1x2x4096) (k0_off1 k) S1x2x256.size (k0_off1_inb k))

/-- One trip's result, read off the trip's run once: the two payloads at the carried value and the trip's tile. -/
theorem trip_eq (𝒱 : Variants) (c : Dev nD) (bd : Option 𝒱.V) (i : grid0.Coords) (a1 : Memref sig .tc .vmem S1x2x4096 .f32) (h1 : a1.IsWhole)
    (a2 : Memref sig .tc .vmem S1x2x4096 .f32) (h2 : a2.IsWhole) (a3 : Memref sig .tc .vmem S1x8x128 .f32) (h3 : a3.IsWhole)
    (v0 : Vec F S1x2x4096 .f32) (x1 : Vec F S1x2x4096 .f32) (k : Fin k0_t1_loop.trips)
    (acc : FVec F S1x1 .f32 × FVec F S1x4096 .f32) :
    tripR_k0_t1 (F := F) 𝒱 c bd i a1 h1 a2 h2 a3 h3 v0 (h2.unread x1) k acc
      = (k0_pay9 v0 acc.1 (tile x1 k), k0_pay10 v0 acc.2 (tile x1 k)) := by
  show (trip_k0_t1 (F := F) 𝒱 c bd i a1 h1 a2 h2 a3 h3 v0 (h2.unread x1) k).1 acc = _
  unfold trip_k0_t1
  dsimp only
  sl_unfold_words
  simp only [View.readAt_eq_ld, h2.read_unread]
  rfl

end generic

/-- Point `r` of tile `k` is point `256 k + r` of the block. -/
theorem tile_apply (x1 : Vec Ideal S1x2x4096 .f32) (k : Fin k0_t1_loop.trips) (d : Fin 2) (r : Fin 256) :
    tile x1 k (ix3 0 d r) = x1 (ix3 0 d (pt ⟨k.val, trips_eq ▸ k.isLt⟩ r)) := by
  show x1 ((Rect.unit (s := S1x2x4096) (k0_off1 k) S1x2x256.size (k0_off1_inb k)).idx (ix3 0 d r)) = _
  refine congrArg x1 (funext fun a => Fin.ext ?_)
  show (k0_off1 k) a + 1 * ((ix3 (0 : Fin 1) d r) a).val = _
  rw [k0_off1_eq]
  match a with
  | ⟨0, _⟩ => rfl
  | ⟨1, _⟩ => show 0 + 1 * d.val = d.val; omega
  | ⟨2, _⟩ => show 256 * k.val + 1 * r.val = 256 * k.val + r.val; omega

section value

variable (c : Dev nD) (i : grid0.Coords) (a1 : Memref sig .tc .vmem S1x2x4096 .f32) (h1 : a1.IsWhole)
  (a2 : Memref sig .tc .vmem S1x2x4096 .f32) (h2 : a2.IsWhole) (a3 : Memref sig .tc .vmem S1x8x128 .f32) (h3 : a3.IsWhole)
  (x0 x1 : Vec Ideal S1x2x4096 .f32)

/-- The expanded square from point `j` of the second block toward point `i'` of the first. -/
abbrev ePlus (x0 x1 : Vec Ideal S1x2x4096 .f32) (j i' : Fin 4096) : EReal :=
  expandPlus (x1 (ix3 0 0 j)) (x1 (ix3 0 1 j)) (x0 (ix3 0 0 i')) (x0 (ix3 0 1 i'))

/-- The same with the cross term's sign turned. -/
abbrev eMinus (x0 x1 : Vec Ideal S1x2x4096 .f32) (j i' : Fin 4096) : EReal :=
  expandMinus (x1 (ix3 0 0 j)) (x1 (ix3 0 1 j)) (x0 (ix3 0 0 i')) (x0 (ix3 0 1 i'))

/-- The pair the loop carries into trip `k`. -/
abbrev carried (k : ℕ) : FVec Ideal S1x1 .f32 × FVec Ideal S1x4096 .f32 :=
  st_k0_t1 (F := Ideal) Variants.none c none i a1 h1 a2 h2 a3 h3 x0 (h2.unread x1) (k0_pay2, k0_pay3) k

theorem carried_succ (k : ℕ) (hk : k < 16) :
    carried c i a1 h1 a2 h2 a3 h3 x0 x1 (k + 1)
      = (k0_pay9 x0 (carried c i a1 h1 a2 h2 a3 h3 x0 x1 k).1 (tile x1 ⟨k, by rw [trips_eq]; exact hk⟩),
         k0_pay10 x0 (carried c i a1 h1 a2 h2 a3 h3 x0 x1 k).2 (tile x1 ⟨k, by rw [trips_eq]; exact hk⟩)) :=
  (st_k0_t1_succ (F := Ideal) Variants.none c none i a1 h1 a2 h2 a3 h3 x0 (h2.unread x1) (k0_pay2, k0_pay3)
      ⟨k, by rw [trips_eq]; exact hk⟩).trans
    (trip_eq Variants.none c none i a1 h1 a2 h2 a3 h3 x0 x1 ⟨k, by rw [trips_eq]; exact hk⟩ _)

/-- Before trip `k` the running maximum ranges over the points of the first `k` tiles, and so does the running
    minimum at every column. -/
theorem carried_inv (k : ℕ) (hk : k ≤ 16) :
    (carried c i a1 h1 a2 h2 a3 h3 x0 x1 k).1 (ix2 0 0)
        = (⨆ (k' : Fin 16) (_ : k'.val < k), ⨆ r : Fin 256, ⨅ i' : Fin 4096, ePlus x0 x1 (pt k' r) i')
      ∧ ∀ i' : Fin 4096, (carried c i a1 h1 a2 h2 a3 h3 x0 x1 k).2 (ix2 0 i')
        = ⨅ (k' : Fin 16) (_ : k'.val < k), ⨅ r : Fin 256, eMinus x0 x1 (pt k' r) i' := by
  induction k with
  | zero =>
    refine ⟨?_, fun i' => ?_⟩
    · rw [iSup_lt_zero]; exact pay2_apply
    · rw [iInf_lt_zero]; exact pay3_apply i'
  | succ k ih =>
    have hk' : k < 16 := hk
    obtain ⟨ih1, ih2⟩ := ih (Nat.le_of_lt hk')
    rw [carried_succ c i a1 h1 a2 h2 a3 h3 x0 x1 k hk']
    refine ⟨?_, fun i' => ?_⟩
    · refine (pay9_apply _ _ _).trans ?_
      rw [ih1, iSup_lt_succ _ k hk']
      refine congrArg (max _) ?_
      refine iSup_congr fun r => iInf_congr fun i'' => ?_
      rw [tile_apply, tile_apply]
    · refine (pay10_apply _ _ _ i').trans ?_
      rw [ih2 i', iInf_lt_succ _ k hk']
      refine congrArg (min _) ?_
      refine iInf_congr fun r => ?_
      rw [tile_apply, tile_apply]

/-- What the body leaves in the output block, read off the body's run once: the final payload at the pair the loop
    yields. -/
theorem out_eq :
    out0_A_2 (F := Ideal) c i a1 h1 a2 h2 a3 h3 x0 x1
      = k0_pay11 (carried c i a1 h1 a2 h2 a3 h3 x0 x1 16).1 (carried c i a1 h1 a2 h2 a3 h3 x0 x1 16).2 := by
  unfold out0_A_2
  rw [View.read_writes_eq_canon _ _ _ (cover0_A_2 c i a1 h1 a2 h2 a3 h3 x0 x1)]
  unfold kernelRun0_A
  dsimp only
  sl_unfold_words
  rw [View.canon_unit_zero hz3]
  simp only [View.readAt_eq_ld, h1.read_unread, View.ld_unit_zero (S := S1x2x4096) hz3]
  show k0_pay11 (st_k0_t1 (F := Ideal) Variants.none c none i a1 h1 a2 h2 a3 h3 x0 (h2.unread x1) (k0_pay2, k0_pay3) k0_t1_loop.trips).1
      (st_k0_t1 (F := Ideal) Variants.none c none i a1 h1 a2 h2 a3 h3 x0 (h2.unread x1) (k0_pay2, k0_pay3) k0_t1_loop.trips).2 = _
  rw [trips_eq]

/-- The output block: at every entry, the root of the larger of the two accumulators over all 4096 points. -/
theorem out_apply (u : Fin 1) (s : Fin 8) (l : Fin 128) :
    out0_A_2 (F := Ideal) c i a1 h1 a2 h2 a3 h3 x0 x1 (ix3 u s l)
      = Ideal.sqrt (max (⨆ j : Fin 4096, ⨅ i' : Fin 4096, ePlus x0 x1 j i')
          (⨆ i' : Fin 4096, ⨅ j : Fin 4096, eMinus x0 x1 j i')) := by
  obtain ⟨e1, e2⟩ := carried_inv c i a1 h1 a2 h2 a3 h3 x0 x1 16 (le_refl 16)
  rw [out_eq, pay11_apply, e1, iSup_lt_all]
  refine congrArg Ideal.sqrt (congr (congrArg max ?_) ?_)
  · exact (iSup_blocks (N := 4096) (K := 16) (R := 256) (by norm_num) fun j => ⨅ i' : Fin 4096, ePlus x0 x1 j i').symm
  · refine iSup_congr fun i' => ?_
    rw [e2 i', iInf_lt_all]
    exact (iInf_blocks (N := 4096) (K := 16) (R := 256) (by norm_num) fun j => eMinus x0 x1 j i').symm

end value

end Cert.KernelIdeal.Loop

end
-- ==== Proof.KernelRun.lean ====
/-
  The idealized kernel's run, read as values.

  @main transposes both contours to `[8, 2, 4096]`, so that grid point `t` stages batch `t`'s two coordinate rows of
  each; the body leaves in its `[1, 8, 128]` output block, at every entry, the root of the larger accumulator over batch
  `t`'s points (the loop module); the blocks tile the `[8, 8, 128]` result, so that array holds batch `b`'s value all
  over its plane `b`; the host then takes entry `(b, 0, 0)` of each plane and multiplies by the resolution. That is the
  specification's kernel spelling `Spec.KG` of the three arguments.
-/
import proofs.«411535_j77386720740128_3_alg».proof.Proof.Gen.KernelIdeal.Frame
import proofs.«411535_j77386720740128_3_alg».proof.Proof.KernelLoop
import Idealize.ShloMosaic.Lib.Pipeline.Value
import Idealize.ShloMosaic.Lib.StableHlo.Run
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.KernelIdeal.Loop Cert.Spec Cert.Distance

variable (m : (ℓ : Loc nD τ sig) → Buf (Elt Ideal) ℓ) (ρ : Dev nD → PrngReg)

/-- The two contours and the resolution, as the program's arguments. -/
abbrev con1 (c : Dev nD) : Pts := m ((c : Thread nD τ).loc main_arg0)
abbrev con2 (c : Dev nD) : Pts := m ((c : Thread nD τ).loc main_arg1)
abbrev reso (c : Dev nD) : Scal := m ((c : Thread nD τ).loc main_arg2)

/-- The first staged array is the first contour with its last two axes exchanged. -/
theorem V_v0_apply (c : Dev nD) (b : Fin 8) (d : Fin 2) (i : Fin 4096) :
    (V m c main_v0 : S8x2x4096.Idx → EReal) (ix3 b d i) = con1 m c (ix3 b i d) := by
  have e : (V m c main_v0 : S8x2x4096.Idx → EReal)
      = transpose S8x2x4096 [0, 2, 1] (m ((c : Thread nD τ).loc main_arg0)) transposes_S8x4096x2_S8x2x4096_0_2_1 := by
    show StableHlo.after hostOps0 (fun b => m (c, b)) (Proc.devRef .tc main_v0) = _
    after_results
  rw [e, transpose_ix3_021_apply]

/-- The second staged array is the second contour with its last two axes exchanged. -/
theorem V_v1_apply (c : Dev nD) (b : Fin 8) (d : Fin 2) (i : Fin 4096) :
    (V m c main_v1 : S8x2x4096.Idx → EReal) (ix3 b d i) = con2 m c (ix3 b i d) := by
  have e : (V m c main_v1 : S8x2x4096.Idx → EReal)
      = transpose S8x2x4096 [0, 2, 1] (m ((c : Thread nD τ).loc main_arg1)) transposes_S8x4096x2_S8x2x4096_0_2_1 := by
    show StableHlo.after hostOps0 (fun b => m (c, b)) (Proc.devRef .tc main_v1) = _
    after_results
  rw [e, transpose_ix3_021_apply]

/-- The printed index maps over the grid: every window's block at point `t` is block `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The batch grid point `t` works on. -/
abbrev bat (t : Fin cfg0.N) : Fin 8 := ⟨t.val, Nat.lt_of_lt_of_eq t.isLt N_0⟩

/-- The two input blocks at point `t`. -/
abbrev xb0 (c : Dev nD) (t : Fin cfg0.N) : Vec Ideal S1x2x4096 .f32 := iblk m c 0 t
abbrev xb1 (c : Dev nD) (t : Fin cfg0.N) : Vec Ideal S1x2x4096 .f32 := iblk m c 1 t

/-- Entry `(d, i)` of the first block at point `t` is coordinate `d` of point `i` of the first contour in batch `t`. -/
theorem xb0_apply (c : Dev nD) (t : Fin cfg0.N) (d : Fin 2) (i : Fin 4096) :
    xb0 m c t (ix3 0 d i) = con1 m c (ix3 (bat t) i d) := by
  obtain ⟨e0, e1, e2, -⟩ := idx_facts t
  have h : ((cfg0.win 0).blk t).view.emb (ix3 (0 : Fin 1) d i) = ix3 (bat t) d i := by
    funext a; apply Fin.ext
    match a with
    | ⟨0, _⟩ => show win0_0.index t (0 : Fin 3) * 1 + 1 * 0 = t.val; omega
    | ⟨1, _⟩ => show win0_0.index t (1 : Fin 3) * 2 + 1 * d.val = d.val; omega
    | ⟨2, _⟩ => show win0_0.index t (2 : Fin 3) * 4096 + 1 * i.val = i.val; omega
  show V m c main_v0 (((cfg0.win 0).blk t).view.emb (ix3 (0 : Fin 1) d i)) = _
  rw [h]
  exact V_v0_apply m c (bat t) d i

theorem xb1_apply (c : Dev nD) (t : Fin cfg0.N) (d : Fin 2) (j : Fin 4096) :
    xb1 m c t (ix3 0 d j) = con2 m c (ix3 (bat t) j d) := by
  obtain ⟨-, -, -, e0, e1, e2, -⟩ := idx_facts t
  have h : ((cfg0.win 1).blk t).view.emb (ix3 (0 : Fin 1) d j) = ix3 (bat t) d j := by
    funext a; apply Fin.ext
    match a with
    | ⟨0, _⟩ => show win0_1.index t (0 : Fin 3) * 1 + 1 * 0 = t.val; omega
    | ⟨1, _⟩ => show win0_1.index t (1 : Fin 3) * 2 + 1 * d.val = d.val; omega
    | ⟨2, _⟩ => show win0_1.index t (2 : Fin 3) * 4096 + 1 * j.val = j.val; omega
  show V m c main_v1 (((cfg0.win 1).blk t).view.emb (ix3 (0 : Fin 1) d j)) = _
  rw [h]
  exact V_v1_apply m c (bat t) d j

/-- What the result array ends holding: batch `b`'s value all over plane `b`. -/
abbrev Gout (c : Dev nD) : S8x8x128.Idx → EReal := fun y => KGb (con1 m c) (con2 m c) (y 0)

/-- What point `t` writes back is block `t` of that array. -/
theorem flushed_eq (c : Dev nD) (t : Fin cfg0.N) :
    (dats m 0 c).flushed 2 t = ((cfg0.win 2).blk t).view.read (Elt Ideal) (Gout m c) := by
  obtain ⟨-, -, -, -, -, -, e0, e1, e2⟩ := idx_facts t
  show (cfg0.win 2).cut (grid0.coords t) ((dats m 0 c).after 2 t) = _
  rw [after0_2]
  unfold outsAt0
  funext y
  have hy : y = ix3 (y 0) (y 1) (y 2) := eq_ix3 y
  have hy0 : (y 0).val < 1 := (y 0).isLt
  have hb : ((cfg0.win 2).blk t).view.emb y (0 : Fin 3) = bat t :=
    Fin.ext (by show win0_2.index t (0 : Fin 3) * 1 + 1 * (y 0).val = t.val; omega)
  show out0_A_2 (F := Ideal) c (grid0.coords t) (ms0_0 t) (hs0_0 t) (ms0_1 t) (hs0_1 t) (ms0_2 t) (hs0_2 t) (xb0 m c t) (xb1 m c t) y
    = KGb (con1 m c) (con2 m c) (((cfg0.win 2).blk t).view.emb y (0 : Fin 3))
  refine (congrArg (out0_A_2 (F := Ideal) c (grid0.coords t) (ms0_0 t) (hs0_0 t) (ms0_1 t) (hs0_1 t) (ms0_2 t) (hs0_2 t) (xb0 m c t) (xb1 m c t)) hy).trans ?_
  refine (out_apply c (grid0.coords t) (ms0_0 t) (hs0_0 t) (ms0_1 t) (hs0_1 t) (ms0_2 t) (hs0_2 t) (xb0 m c t) (xb1 m c t) (y 0) (y 1) (y 2)).trans ?_
  rw [hb]
  unfold KGb sqToward sqFrom
  refine congrArg Ideal.sqrt (congr (congrArg max ?_) ?_)
  · refine iSup_congr fun j => iInf_congr fun i' => ?_
    show expandPlus (xb1 m c t (ix3 0 0 j)) (xb1 m c t (ix3 0 1 j)) (xb0 m c t (ix3 0 0 i')) (xb0 m c t (ix3 0 1 i')) = _
    rw [xb1_apply, xb1_apply, xb0_apply, xb0_apply]
  · refine iSup_congr fun i' => iInf_congr fun j => ?_
    show expandMinus (xb1 m c t (ix3 0 0 j)) (xb1 m c t (ix3 0 1 j)) (xb0 m c t (ix3 0 0 i')) (xb0 m c t (ix3 0 1 i')) = _
    rw [xb1_apply, xb1_apply, xb0_apply, xb0_apply]

/-- An index of the result array is in point `t`'s block iff each coordinate is in the block's range on its axis. -/
theorem mem_blk (t : Fin cfg0.N) (i : S8x8x128.Idx) :
    i ∈ ((cfg0.win 2).blk t).view.set ↔ ∀ a : Fin 3, win0_2.index t a * S1x8x128.size a ≤ (i a).val
      ∧ (i a).val < win0_2.index t a * S1x8x128.size a + S1x8x128.size a := by
  show i ∈ ((View.whole main_v2).slice (win0_2.rect t)).set ↔ _
  rw [View.set_slice_whole, Rect.mem_set_unit]
  exact Iff.rfl

/-- Plane `b` of the result array is point `b`'s block: the blocks cover the array. -/
theorem cover (i : S8x8x128.Idx) : ∃ t : Fin cfg0.N, (cfg0.win 2).flush t = true ∧ i ∈ ((cfg0.win 2).blk t).view.set := by
  have hN : cfg0.N = 8 := N_0
  have h0 : (i 0).val < 8 := (i 0).isLt
  have h1 : (i 1).val < 8 := (i 1).isLt
  have h2 : (i 2).val < 128 := (i 2).isLt
  refine ⟨⟨(i 0).val, Nat.lt_of_lt_of_eq h0 hN.symm⟩, flush0_2 _, ?_⟩
  obtain ⟨-, -, -, -, -, -, e0, e1, e2⟩ := idx_facts ⟨(i 0).val, Nat.lt_of_lt_of_eq h0 hN.symm⟩
  have e0' : win0_2.index ⟨(i 0).val, Nat.lt_of_lt_of_eq h0 hN.symm⟩ (0 : Fin 3) = (i 0).val := e0
  rw [mem_blk]
  intro a
  match a with
  | ⟨0, _⟩ => show win0_2.index _ (0 : Fin 3) * 1 ≤ (i 0).val ∧ (i 0).val < win0_2.index _ (0 : Fin 3) * 1 + 1; rw [e0']; omega
  | ⟨1, _⟩ => show win0_2.index _ (1 : Fin 3) * 8 ≤ (i 1).val ∧ (i 1).val < win0_2.index _ (1 : Fin 3) * 8 + 8; rw [e1]; omega
  | ⟨2, _⟩ => show win0_2.index _ (2 : Fin 3) * 128 ≤ (i 2).val ∧ (i 2).val < win0_2.index _ (2 : Fin 3) * 128 + 128; rw [e2]; omega

/-- The result array after the run. -/
theorem final (c : Dev nD) : (dats m 0 c).arrAt 2 cfg0.N = Gout m c :=
  (dats m 0 c).arrAt_eq_of_cover 2 (Gout m c) (fun t _ => flushed_eq m c t) (cover)

/-- The host's last lines: entry `(b, 0, 0)` of each plane, times the resolution. -/
theorem tail_eq (c : Dev nD) :
    Pipeline.afterTail₀ cfgs (dats m) 0 (V0 m) [hostOps1] c main_v5 = KG (con1 m c) (con2 m c) (reso m c) := by
  unfold Pipeline.afterTail₀
  show StableHlo.after hostOps1 _ (Proc.devRef .tc main_v5) = _
  after_results
  have hr : Pipeline.withArrays (cfgs 0).spec c (V0 m c) (fun w => (dats m 0 c).arrAt w (cfgs 0).N) (Proc.tc.devRef main_arg2)
      = reso m c := by
    rw [Pipeline.withArrays_of_ne _ c (V0 m c) _ main_arg2 (by exact (by decide : ∀ w, Pipeline.arrRef spec0 w ≠ main_arg2))]
    exact V_main_arg2 m c
  have ha : Pipeline.withArrays (cfgs 0).spec c (V0 m c) (fun w => (dats m 0 c).arrAt w (cfgs 0).N) (Proc.tc.devRef main_v2)
      = Gout m c :=
    (Pipeline.withArrays_arr spec0 launch0.win.arr_inj c _ _ 2).trans (final m c)
  rw [hr, ha]
  funext j
  show shapeCast S8 (extractStridedSlice S8x1x1 ![0, 0, 0] (Gout m c) slices_S8x8x128_S8x1x1_0_0_0) shapeCasts_S8x1x1_S8 j * reso m c j
    = KGb (con1 m c) (con2 m c) (j 0) * reso m c j
  refine congrArg (· * reso m c j) ?_
  refine (shapeCast_apply _ shapeCasts_S8x1x1_S8 j (ix3 (j 0) (0 : Fin 1) (0 : Fin 1)) (by
    rw [Shape.rowMajor_val_three, Shape.rowMajor_val_one]
    show ((j 0).val * 1 + 0) * 1 + 0 = (j 0).val
    omega)).trans ?_
  exact extractStridedSlice_apply _ (Gout m c) slices_S8x8x128_S8x1x1_0_0_0 _ (ix3 (j 0) (0 : Fin 8) (0 : Fin 128)) (fun a => by
    match a with
    | ⟨0, _⟩ => exact (Nat.zero_add _).symm
    | ⟨1, _⟩ => rfl
    | ⟨2, _⟩ => rfl)

/-- The run, read: the result at the kernel's spelling of the specification, the arguments unchanged. -/
theorem run : θ_run defs (onTc (τ := τ) (main (F := Ideal))) ⟨m, fun _ => 0, ρ⟩ fun r => ∀ c : Dev nD,
      r.2.mem ((c : Thread nD τ).loc main_v5) = KG (con1 m c) (con2 m c) (reso m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Run

end
-- ==== Proof.RefValue.lean ====
/-
  The reference's result, read index by index: at batch `b` it is the larger of the two directed `ε`-shifted
  distances between the contours, times the resolution (`Spec.G`).

  Each half of the reference forms, for every pair of points, the root of the sum over the two coordinates of the squared
  `ε`-shifted difference; takes the minimum over the inner point from `+∞`, which is the infimum over it; and the maximum
  over the outer point from `-∞`, which is the supremum over it. That is a directed distance. The second half is the first
  with the two contours exchanged; the last two stages take the larger of the halves and multiply by the resolution.
-/
import proofs.«411535_j77386720740128_3_alg».proof.Proof.Gen.ReferenceIdeal.Read
import proofs.«411535_j77386720740128_3_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read
open Cert.Distance Cert.Consts Cert.Spec Cert.LibFoldLattice

/-- Stage 0 after stage 2 after the coordinate sum's index: the second contour's point `j`, coordinate `k`. -/
theorem idx_v0_v2_v8 (b : Fin 8) (j i : Fin 4096) (k : Fin 2) :
    idx_main_v0 (idx_main_v2 (idx_main_v8 (ix3 b j i) k)) = ix3 b j k :=
  funext fun a => Fin.ext (by match a with | ⟨0, _⟩ => rfl | ⟨1, _⟩ => rfl | ⟨2, _⟩ => rfl)

theorem idx_v1_v3_v8 (b : Fin 8) (j i : Fin 4096) (k : Fin 2) :
    idx_main_v1 (idx_main_v3 (idx_main_v8 (ix3 b j i) k)) = ix3 b i k :=
  funext fun a => Fin.ext (by match a with | ⟨0, _⟩ => rfl | ⟨1, _⟩ => rfl | ⟨2, _⟩ => rfl)

theorem idx_v12_v14_v20 (b : Fin 8) (j i : Fin 4096) (k : Fin 2) :
    idx_main_v12 (idx_main_v14 (idx_main_v20 (ix3 b j i) k)) = ix3 b j k :=
  funext fun a => Fin.ext (by match a with | ⟨0, _⟩ => rfl | ⟨1, _⟩ => rfl | ⟨2, _⟩ => rfl)

theorem idx_v13_v15_v20 (b : Fin 8) (j i : Fin 4096) (k : Fin 2) :
    idx_main_v13 (idx_main_v15 (idx_main_v20 (ix3 b j i) k)) = ix3 b i k :=
  funext fun a => Fin.ext (by match a with | ⟨0, _⟩ => rfl | ⟨1, _⟩ => rfl | ⟨2, _⟩ => rfl)

/-- The first half's pointwise distance: from point `i` of the first contour to point `j` of the second. -/
theorem v9_at (x0 x1 : (⟨S8x4096x2, .f32⟩ : BufTy).Contents (Elt Ideal)) (b : Fin 8) (j i : Fin 4096) :
    val_main_v9 (F := Ideal) x0 x1 (ix3 b j i)
      = Ideal.sqrt (sqDist (x1 (ix3 b j 0)) (x1 (ix3 b j 1)) (x0 (ix3 b i 0)) (x0 (ix3 b i 1))) := by
  rw [val_main_v9_apply, val_main_v8_apply, Fin.sum_univ_two]
  simp only [val_main_v7_apply, val_main_v6_apply, val_main_v5_apply, val_main_cst_apply, val_main_v4_apply,
    val_main_v3_apply, val_main_v2_apply, val_main_v1_apply, val_main_v0_apply, val_main_cst_0_apply,
    idx_v0_v2_v8, idx_v1_v3_v8]
  show Ideal.sqrt (Ideal.ofBits .f32 0x00000000#32 +
      ((x1 (ix3 b j 0) - x0 (ix3 b i 0) + Ideal.ofBits .f32 0x358637BD#32)
          * (x1 (ix3 b j 0) - x0 (ix3 b i 0) + Ideal.ofBits .f32 0x358637BD#32)
        + (x1 (ix3 b j 1) - x0 (ix3 b i 1) + Ideal.ofBits .f32 0x358637BD#32)
          * (x1 (ix3 b j 1) - x0 (ix3 b i 1) + Ideal.ofBits .f32 0x358637BD#32))) = _
  rw [ofBits_zero, ofBits_eps]
  rfl

/-- The second half's pointwise distance: the same with the two contours exchanged. -/
theorem v21_at (x0 x1 : (⟨S8x4096x2, .f32⟩ : BufTy).Contents (Elt Ideal)) (b : Fin 8) (j i : Fin 4096) :
    val_main_v21 (F := Ideal) x0 x1 (ix3 b j i)
      = Ideal.sqrt (sqDist (x0 (ix3 b j 0)) (x0 (ix3 b j 1)) (x1 (ix3 b i 0)) (x1 (ix3 b i 1))) := by
  rw [val_main_v21_apply, val_main_v20_apply, Fin.sum_univ_two]
  simp only [val_main_v19_apply, val_main_v18_apply, val_main_v17_apply, val_main_cst_3_apply, val_main_v16_apply,
    val_main_v15_apply, val_main_v14_apply, val_main_v13_apply, val_main_v12_apply, val_main_cst_4_apply,
    idx_v12_v14_v20, idx_v13_v15_v20]
  show Ideal.sqrt (Ideal.ofBits .f32 0x00000000#32 +
      ((x0 (ix3 b j 0) - x1 (ix3 b i 0) + Ideal.ofBits .f32 0x358637BD#32)
          * (x0 (ix3 b j 0) - x1 (ix3 b i 0) + Ideal.ofBits .f32 0x358637BD#32)
        + (x0 (ix3 b j 1) - x1 (ix3 b i 1) + Ideal.ofBits .f32 0x358637BD#32)
          * (x0 (ix3 b j 1) - x1 (ix3 b i 1) + Ideal.ofBits .f32 0x358637BD#32))) = _
  rw [ofBits_zero, ofBits_eps]
  rfl

/-- The index over `(b, j)` with `i` inserted on the last axis. -/
theorem lift_inner (h : S8x4096x4096.Reduces [2] S8x4096) (b : Fin 8) (j i : Fin 4096) :
    h.lift (ix2 b j) i = ix3 b j i :=
  funext fun a => Fin.ext (by match a with | ⟨0, _⟩ => rfl | ⟨1, _⟩ => rfl | ⟨2, _⟩ => rfl)

/-- The index over `b` with `j` inserted on the last axis. -/
theorem lift_outer (h : S8x4096.Reduces [1] S8) (b : Fin 8) (j : Fin 4096) :
    h.lift (ix1 b) j = ix2 b j :=
  funext fun a => Fin.ext (by match a with | ⟨0, _⟩ => rfl | ⟨1, _⟩ => rfl)

/-- A minimum over the last axis from `+∞` is the infimum over that axis. -/
theorem reduce_min_inner (y : S8x4096x4096.Idx → EReal) (b : Fin 8) (j : Fin 4096) :
    Host.reduce (FloatOps.minimumf (F := Ideal) (φ := .f32)) y (constant (F := Ideal) S_ .f32 0x7F800000#32)
        reducesTo_S8x4096x4096_S8x4096_d2 h_S_ (ix2 b j)
      = ⨅ i : Fin 4096, y (ix3 b j i) := by
  have h : S8x4096x4096.Reduces [2] S8x4096 := by decide
  rw [Host.reduce_eq_fold_single _ _ _ reducesTo_S8x4096x4096_S8x4096_d2 h h_S_]
  have hf : (y ∘ h.lift (ix2 b j)) = fun i : Fin 4096 => y (ix3 b j i) :=
    funext fun i => congrArg y (lift_inner h b j i)
  rw [hf]
  refine Eq.trans ?_ (fold_min_univ_top _)
  show Finset.fold min (Ideal.ofBits .f32 0x7F800000#32) (fun i : Fin 4096 => y (ix3 b j i)) Finset.univ = _
  rw [ofBits_pos_inf]

/-- A maximum over the last axis from `-∞` is the supremum over that axis. -/
theorem reduce_max_outer (y : S8x4096.Idx → EReal) (b : Fin 8) :
    Host.reduce (FloatOps.maximumf (F := Ideal) (φ := .f32)) y (constant (F := Ideal) S_ .f32 0xFF800000#32)
        reducesTo_S8x4096_S8_d1 h_S_ (ix1 b)
      = ⨆ j : Fin 4096, y (ix2 b j) := by
  have h : S8x4096.Reduces [1] S8 := by decide
  rw [Host.reduce_eq_fold_single _ _ _ reducesTo_S8x4096_S8_d1 h h_S_]
  have hf : (y ∘ h.lift (ix1 b)) = fun j : Fin 4096 => y (ix2 b j) :=
    funext fun j => congrArg y (lift_outer h b j)
  rw [hf]
  refine Eq.trans ?_ (fold_max_univ_bot _)
  show Finset.fold max (Ideal.ofBits .f32 0xFF800000#32) (fun j : Fin 4096 => y (ix2 b j)) Finset.univ = _
  rw [ofBits_neg_inf]

/-- The first half, reduced: the directed distance from the second contour to the first. -/
theorem v11_at (x0 x1 : (⟨S8x4096x2, .f32⟩ : BufTy).Contents (Elt Ideal)) (b : Fin 8) :
    val_main_v11 (F := Ideal) x0 x1 (ix1 b) = directed x1 x0 b := by
  unfold val_main_v11 directed
  refine (reduce_max_outer _ b).trans (iSup_congr fun j => ?_)
  unfold val_main_v10
  refine (reduce_min_inner _ b j).trans (iInf_congr fun i => ?_)
  exact v9_at x0 x1 b j i

/-- The second half, reduced: the directed distance from the first contour to the second. -/
theorem v23_at (x0 x1 : (⟨S8x4096x2, .f32⟩ : BufTy).Contents (Elt Ideal)) (b : Fin 8) :
    val_main_v23 (F := Ideal) x0 x1 (ix1 b) = directed x0 x1 b := by
  unfold val_main_v23 directed
  refine (reduce_max_outer _ b).trans (iSup_congr fun j => ?_)
  unfold val_main_v22
  refine (reduce_min_inner _ b j).trans (iInf_congr fun i => ?_)
  exact v21_at x0 x1 b j i

/-- The reference's last stage, as a function of its three arguments, is the specification. -/
theorem result_eq (x0 x1 : (⟨S8x4096x2, .f32⟩ : BufTy).Contents (Elt Ideal)) (x2 : (⟨S8, .f32⟩ : BufTy).Contents (Elt Ideal)) :
    val_main_v25 (F := Ideal) x0 x1 x2 = Cert.Spec.G x0 x1 x2 := by
  funext j
  have h23 : val_main_v23 (F := Ideal) x0 x1 j = directed x0 x1 (j 0) :=
    (congrArg (val_main_v23 (F := Ideal) x0 x1) (eq_ix1 j)).trans (v23_at x0 x1 (j 0))
  have h11 : val_main_v11 (F := Ideal) x0 x1 j = directed x1 x0 (j 0) :=
    (congrArg (val_main_v11 (F := Ideal) x0 x1) (eq_ix1 j)).trans (v11_at x0 x1 (j 0))
  rw [val_main_v25_apply, val_main_v24_apply, h23, h11]
  rfl

end Cert.ReferenceIdeal.RefValue

end
-- ==== Proof.FiniteOfPre.lean ====
/-
  From the printed precondition to finiteness: where `finite_inputs` evaluates to true, no entry of either contour is
  an infinity.

  The precondition is the conjunction of three tests, one per input: every entry `x` has `|x| < +∞`, the absolute value
  being `max x (-x)` on the extended reals. Both infinities have absolute value `⊤`, which is not below `⊤`; so an entry
  that passes the test is a real number.
-/
import proofs.«411535_j77386720740128_3_alg».proof.Pre_finite_inputs
import proofs.«411535_j77386720740128_3_alg».proof.Proof.Gen.Pre_finite_inputs
import proofs.«411535_j77386720740128_3_alg».proof.Proof.Spec
import proofs.«411535_j77386720740128_3_alg».proof.Proof.Consts
import Idealize.ShloMosaic.Lib.ValueIdx
import Idealize.ShloMosaic.Lib.ReduceAll

noncomputable section

namespace Cert.FiniteOfPre

open Idealize.ShloMosaic Idealize.ShloMosaic.ValueIdx Cert.Pre_finite_inputs

/-- The rank-0 shape has exactly one index. -/
local instance : Subsingleton S_.Idx := ⟨fun a b => funext fun d => d.elim0⟩

/-- An extended real whose absolute value `max x (-x)` is strictly below `⊤` is neither infinity: at `⊤` the maximum
    is `⊤` itself, at `⊥` it is `-⊥ = ⊤`, and `⊤ < ⊤` is false. -/
theorem ne_inf_of_abs_lt (x : EReal) (hx : Ideal.cmp .olt (max x (-x)) ⊤ = 1#1) : x ≠ ⊤ ∧ x ≠ ⊥ := by
  induction x using EReal.rec with
  | bot => simp [Ideal.cmp] at hx
  | top => simp [Ideal.cmp] at hx
  | coe r => exact ⟨EReal.coe_ne_top r, EReal.coe_ne_bot r⟩

/-- One entry of a contour that passes the test `|x| < +∞` is finite: the compared constant, broadcast from a scalar,
    is `⊤` at every index. -/
theorem entry_finite (x : FVec Ideal S8x4096x2 .f32)
    (hb : S_.BroadcastsInDim S8x4096x2 (![] : Fin 0 → Fin S8x4096x2.rank)) (i : S8x4096x2.Idx)
    (e : cmpf .olt (Host.absf x) (broadcastInDim S8x4096x2 ![] hb (constant S_ .f32 0x7F800000#32)) i = 1#1) :
    x i ≠ ⊤ ∧ x i ≠ ⊥ := by
  have e' : Ideal.cmp .olt (max (x i) (-(x i))) (Ideal.ofBits .f32 0x7F800000#32) = 1#1 := e
  rw [Cert.Consts.ofBits_pos_inf] at e'
  exact ne_inf_of_abs_lt _ e'

/-- Where the precondition holds, both contours are finite. The precondition's one word is the conjunction of the three
    tests; the first two are the conjunctions, over all entries, of `|x| < +∞` on the first and on the second contour. -/
theorem of_pre [Cert.Pre_finite_inputs.Facts] (x0 x1 : FVec Ideal S8x4096x2 .f32) (x2 : FVec Ideal S8 .f32)
    (h : Cert.Pre_finite_inputs.fn (F := Ideal) x0 x1 x2 = fun _ => 1#1) :
    Cert.Spec.Finite x0 ∧ Cert.Spec.Finite x1 := by
  have h0 := congrFun h ValueIdx.ix0
  dsimp only [fn] at h0
  obtain ⟨h12, -⟩ := IntOp.andi_eq_one.1 h0
  obtain ⟨h1, h2⟩ := IntOp.andi_eq_one.1 h12
  refine ⟨fun i => ?_, fun i => ?_⟩
  · exact entry_finite x0 _ i (Host.reduce_andi_all _ _ _ _ _ h1 i)
  · exact entry_finite x1 _ i (Host.reduce_andi_all _ _ _ _ _ h2 i)

end Cert.FiniteOfPre

end
-- ==== Proof.lean ====
/-
  The certificate of the symmetric `ε`-shifted Hausdorff kernel against its reference.

  For eight batches of two contours of 4096 points in the plane, the reference takes, in each direction, the largest
  over the points `p` of one contour of the least over the points `q` of the other of `√((p₀ - q₀ + ε)² + (p₁ - q₁ + ε)²)`,
  keeps the larger of the two directions, and multiplies by the batch's resolution. The kernel expands the squares
  around the unshifted differences `dx, dy` — `(dx² + dy²) ± 2ε (dx + dy) + 2ε²`, one pair `dx, dy` serving both
  directions —, reduces the expanded squares tile by tile in a loop (a running maximum of row minima, a running
  minimum per column), and takes ONE square root at the end.

  The two agree on finite inputs: the expansion is a ring identity on real numbers (`2ε` is the kernel's own
  coefficient exactly; its constant term denotes `2ε²` by the certificate's table), and the square root of the extended
  reals is monotone, so it passes through the maxima and minima of nonempty finite families. The modules: the
  constants, the ring identity and the root's monotonicity; the specification in both spellings and their bridge; the
  kernel body read at an index, the loop's invariant, and the run read as values; the reference read at an index;
  finiteness from the precondition.
-/
import proofs.«411535_j77386720740128_3_alg».proof.Defs
import proofs.«411535_j77386720740128_3_alg».proof.Proof.Gen.Kernel
import proofs.«411535_j77386720740128_3_alg».proof.Proof.Gen.Kernel.Skeleton
import proofs.«411535_j77386720740128_3_alg».proof.Proof.Gen.Kernel.Loops
import proofs.«411535_j77386720740128_3_alg».proof.Proof.Gen.Kernel.Launch
import proofs.«411535_j77386720740128_3_alg».proof.Proof.Gen.Kernel.Points
import proofs.«411535_j77386720740128_3_alg».proof.Proof.Gen.Kernel.Frame
import proofs.«411535_j77386720740128_3_alg».proof.Proof.Gen.KernelIdeal
import proofs.«411535_j77386720740128_3_alg».proof.Proof.Gen.KernelIdeal.Skeleton
import proofs.«411535_j77386720740128_3_alg».proof.Proof.Gen.KernelIdeal.Loops
import proofs.«411535_j77386720740128_3_alg».proof.Proof.Gen.KernelIdeal.Launch
import proofs.«411535_j77386720740128_3_alg».proof.Proof.Gen.KernelIdeal.Points
import proofs.«411535_j77386720740128_3_alg».proof.Proof.Gen.KernelIdeal.Frame
import proofs.«411535_j77386720740128_3_alg».proof.Proof.Gen.ReferenceIdeal
import proofs.«411535_j77386720740128_3_alg».proof.Proof.Gen.Pre_finite_inputs
import proofs.«411535_j77386720740128_3_alg».proof.Proof.Gen.ReferenceIdeal.Run
import proofs.«411535_j77386720740128_3_alg».proof.Proof.Gen.ReferenceIdeal.Read
import proofs.«411535_j77386720740128_3_alg».proof.Proof.Spec
import proofs.«411535_j77386720740128_3_alg».proof.Proof.KernelRun
import proofs.«411535_j77386720740128_3_alg».proof.Proof.RefValue
import proofs.«411535_j77386720740128_3_alg».proof.Proof.FiniteOfPre
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The table gives the kernel's constant term the value `2 ε²`, at both places the body spells it. -/
theorem preserves : Cert.preserves_Kernel_KernelIdeal :=
  ⟨IdealRules.named_const.statement Cert.KernelIdeal.κ "two_eps_sq" .f32 0x2C0CBCCC#32
      ((77371252064649 / 38685626227668133590597632 : ℝ) : EReal) rfl,
    IdealRules.named_const.statement Cert.KernelIdeal.κ "two_eps_sq" .f32 0x2C0CBCCC#32
      ((77371252064649 / 38685626227668133590597632 : ℝ) : EReal) rfl⟩

/-- From arguments that agree and are finite, both programs end at the specification: the kernel at its own spelling,
    which on finite contours is the reference's. -/
theorem algebraic : Cert.algebraic_KernelIdeal_ReferenceIdeal := by
  intro m ρ m' ρ' hpre hagree
  refine ⟨fun c => Cert.Spec.G
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.Run.run m ρ)
    obtain ⟨f1, f2⟩ := Cert.FiniteOfPre.of_pre _ _ _ (hpre c)
    exact Cert.Spec.KG_eq_G _ _ _ f1 f2
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v25_eq, Cert.ReferenceIdeal.RefValue.result_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
